-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x7168 : Shape := ⟨3, ![2, 2048, 7168]⟩
abbrev S18432x7168 : Shape := ⟨2, ![18432, 7168]⟩
abbrev S144x56 : Shape := ⟨2, ![144, 56]⟩
abbrev S_ : Shape := ⟨0, ![]⟩

class Facts : Prop where
  bcast_S_S2x2048x7168 : S_.BroadcastsInDim S2x2048x7168 (![] : Fin 0 → Fin S2x2048x7168.rank)
  reducesTo_S2x2048x7168_S_d0_1_2 : S2x2048x7168.ReducesTo [0, 1, 2] S_
  h_S_ : 0 < S_.numel
  bcast_S_S18432x7168 : S_.BroadcastsInDim S18432x7168 (![] : Fin 0 → Fin S18432x7168.rank)
  reducesTo_S18432x7168_S_d0_1 : S18432x7168.ReducesTo [0, 1] S_
  bcast_S_S144x56 : S_.BroadcastsInDim S144x56 (![] : Fin 0 → Fin S144x56.rank)
  reducesTo_S144x56_S_d0_1 : S144x56.ReducesTo [0, 1] S_

variable [Facts]

def fn {F : FTy → Type} [FloatOps F] (main_arg0 : FVec F S2x2048x7168 .f32) (main_arg1 : FVec F S18432x7168 .f32) (main_arg2 : FVec F S144x56 .f32) : IVec S_ 1 :=
  let main_v0 : FVec F S2x2048x7168 .f32 := Host.absf main_arg0
  let main_cst : FVec F S_ .f32 := constant S_ .f32 0x7F800000#32
  let main_v1 : FVec F S2x2048x7168 .f32 := broadcastInDim S2x2048x7168 ![] bcast_S_S2x2048x7168 main_cst
  let main_v2 : IVec S2x2048x7168 1 := cmpf .olt main_v0 main_v1
  let main_c : IVec S_ 1 := constantI S_ 1 1#1
  let main_v3 : IVec S_ 1 := (fun x v => Host.reduce IntOp.andi x v reducesTo_S2x2048x7168_S_d0_1_2 h_S_) main_v2 main_c
  let main_v4 : FVec F S18432x7168 .f32 := Host.absf main_arg1
  let main_cst_0 : FVec F S_ .f32 := constant S_ .f32 0x7F800000#32
  let main_v5 : FVec F S18432x7168 .f32 := broadcastInDim S18432x7168 ![] bcast_S_S18432x7168 main_cst_0
  let main_v6 : IVec S18432x7168 1 := cmpf .olt main_v4 main_v5
  let main_c_1 : IVec S_ 1 := constantI S_ 1 1#1
  let main_v7 : IVec S_ 1 := (fun x v => Host.reduce IntOp.andi x v reducesTo_S18432x7168_S_d0_1 h_S_) main_v6 main_c_1
  let main_v8 : IVec S_ 1 := andi main_v3 main_v7
  let main_v9 : FVec F S144x56 .f32 := Host.absf main_arg2
  let main_cst_2 : FVec F S_ .f32 := constant S_ .f32 0x7F800000#32
  let main_v10 : FVec F S144x56 .f32 := broadcastInDim S144x56 ![] bcast_S_S144x56 main_cst_2
  let main_v11 : IVec S144x56 1 := cmpf .olt main_v9 main_v10
  let main_c_3 : IVec S_ 1 := constantI S_ 1 1#1
  let main_v12 : IVec S_ 1 := (fun x v => Host.reduce IntOp.andi x v reducesTo_S144x56_S_d0_1 h_S_) main_v11 main_c_3
  let main_v13 : IVec S_ 1 := andi main_v8 main_v12
  main_v13
-- ==== Kernel.lean ====
abbrev S2x2048x7168 : Shape := ⟨3, ![2, 2048, 7168]⟩
abbrev S18432x7168 : Shape := ⟨2, ![18432, 7168]⟩
abbrev S144x56 : Shape := ⟨2, ![144, 56]⟩
abbrev S4096x7168 : Shape := ⟨2, ![4096, 7168]⟩
abbrev S144x56x128 : Shape := ⟨3, ![144, 56, 128]⟩
abbrev S144x7168 : Shape := ⟨2, ![144, 7168]⟩
abbrev S4096x18432 : Shape := ⟨2, ![4096, 18432]⟩
abbrev S2048x512 : Shape := ⟨2, ![2048, 512]⟩
abbrev S1024x512 : Shape := ⟨2, ![1024, 512]⟩
abbrev S8x512 : Shape := ⟨2, ![8, 512]⟩
abbrev S2048x1024 : Shape := ⟨2, ![2048, 1024]⟩
abbrev S128x512 : Shape := ⟨2, ![128, 512]⟩
abbrev S1x512 : Shape := ⟨2, ![1, 512]⟩
abbrev S2x2048x18432 : Shape := ⟨3, ![2, 2048, 18432]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x7168, .f32⟩
  | .hbm, ⟨1, _⟩ => ⟨S18432x7168, .f32⟩
  | .hbm, ⟨2, _⟩ => ⟨S144x56, .f32⟩
  | .hbm, ⟨3, _⟩ => ⟨S4096x7168, .f32⟩
  | .hbm, ⟨4, _⟩ => ⟨S4096x7168, .bf16⟩
  | .hbm, ⟨5, _⟩ => ⟨S144x56x128, .f32⟩
  | .hbm, ⟨6, _⟩ => ⟨S144x7168, .f32⟩
  | .hbm, ⟨7, _⟩ => ⟨S4096x18432, .f32⟩
  | .hbm, ⟨8, _⟩ => ⟨S2x2048x18432, .f32⟩
  | .local _ .vmem, ⟨0, _⟩ => ⟨S2048x512, .bf16⟩
  | .local _ .vmem, ⟨1, _⟩ => ⟨S2048x512, .bf16⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S2048x1024, .f32⟩
  | .local _ .vmem, ⟨7, _⟩ => ⟨S2048x1024, .f32⟩
  | .local _ .vmem, ⟨8, _⟩ => ⟨S1024x512, .bf16⟩
  | _, _ => ⟨S2x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 18, 14], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x2048x7168_S4096x7168 : S2x2048x7168.ShapeCasts S4096x7168
  bitsLt_bf16_f32 : FTy.bits .bf16 < FTy.bits .f32
  bcast_S144x56_S144x56x128_0_1 : S144x56.BroadcastsInDim S144x56x128 (![0, 1] : Fin 2 → Fin S144x56x128.rank)
  shapeCasts_S144x56x128_S144x7168 : S144x56x128.ShapeCasts S144x7168
  inb_S2048x1024_S2048x1024_0_0 : ∀ a, (![0, 0] : Fin 2 → Nat) a + S2048x1024.size a ≤ S2048x1024.size a
  h_S2048x1024 : 0 < S2048x1024.numel
  inb_S1024x512_S128x512_0_0 : ∀ a, (![0, 0] : Fin 2 → Nat) a + S128x512.size a ≤ S1024x512.size a
  h_S128x512 : 0 < S128x512.numel
  inb_S8x512_S1x512_0_0 : ∀ a, (![0, 0] : Fin 2 → Nat) a + S1x512.size a ≤ S8x512.size a
  h_S1x512 : 0 < S1x512.numel
  shapeCasts_S1x512_S1x512 : S1x512.ShapeCasts S1x512
  broadcasts_S1x512_S128x512 : S1x512.Broadcasts S128x512
  shapeCasts_S128x512_S128x512 : S128x512.ShapeCasts S128x512
  packedbf16_S1024x512_S128x512_0_0 : (Rect.unit (s := S1024x512) ![0, 0] S128x512.size inb_S1024x512_S128x512_0_0).PackedRows (EltTy.packing .bf16)
  inb_S1024x512_S128x512_128_0 : ∀ a, (![128, 0] : Fin 2 → Nat) a + S128x512.size a ≤ S1024x512.size a
  inb_S8x512_S1x512_1_0 : ∀ a, (![1, 0] : Fin 2 → Nat) a + S1x512.size a ≤ S8x512.size a
  packedbf16_S1024x512_S128x512_128_0 : (Rect.unit (s := S1024x512) ![128, 0] S128x512.size inb_S1024x512_S128x512_128_0).PackedRows (EltTy.packing .bf16)
  inb_S1024x512_S128x512_256_0 : ∀ a, (![256, 0] : Fin 2 → Nat) a + S128x512.size a ≤ S1024x512.size a
  inb_S8x512_S1x512_2_0 : ∀ a, (![2, 0] : Fin 2 → Nat) a + S1x512.size a ≤ S8x512.size a
  packedbf16_S1024x512_S128x512_256_0 : (Rect.unit (s := S1024x512) ![256, 0] S128x512.size inb_S1024x512_S128x512_256_0).PackedRows (EltTy.packing .bf16)
  inb_S1024x512_S128x512_384_0 : ∀ a, (![384, 0] : Fin 2 → Nat) a + S128x512.size a ≤ S1024x512.size a
  inb_S8x512_S1x512_3_0 : ∀ a, (![3, 0] : Fin 2 → Nat) a + S1x512.size a ≤ S8x512.size a
  packedbf16_S1024x512_S128x512_384_0 : (Rect.unit (s := S1024x512) ![384, 0] S128x512.size inb_S1024x512_S128x512_384_0).PackedRows (EltTy.packing .bf16)
  inb_S1024x512_S128x512_512_0 : ∀ a, (![512, 0] : Fin 2 → Nat) a + S128x512.size a ≤ S1024x512.size a
  inb_S8x512_S1x512_4_0 : ∀ a, (![4, 0] : Fin 2 → Nat) a + S1x512.size a ≤ S8x512.size a
  packedbf16_S1024x512_S128x512_512_0 : (Rect.unit (s := S1024x512) ![512, 0] S128x512.size inb_S1024x512_S128x512_512_0).PackedRows (EltTy.packing .bf16)
  inb_S1024x512_S128x512_640_0 : ∀ a, (![640, 0] : Fin 2 → Nat) a + S128x512.size a ≤ S1024x512.size a
  inb_S8x512_S1x512_5_0 : ∀ a, (![5, 0] : Fin 2 → Nat) a + S1x512.size a ≤ S8x512.size a
  packedbf16_S1024x512_S128x512_640_0 : (Rect.unit (s := S1024x512) ![640, 0] S128x512.size inb_S1024x512_S128x512_640_0).PackedRows (EltTy.packing .bf16)
  inb_S1024x512_S128x512_768_0 : ∀ a, (![768, 0] : Fin 2 → Nat) a + S128x512.size a ≤ S1024x512.size a
  inb_S8x512_S1x512_6_0 : ∀ a, (![6, 0] : Fin 2 → Nat) a + S1x512.size a ≤ S8x512.size a
  packedbf16_S1024x512_S128x512_768_0 : (Rect.unit (s := S1024x512) ![768, 0] S128x512.size inb_S1024x512_S128x512_768_0).PackedRows (EltTy.packing .bf16)
  inb_S1024x512_S128x512_896_0 : ∀ a, (![896, 0] : Fin 2 → Nat) a + S128x512.size a ≤ S1024x512.size a
  inb_S8x512_S1x512_7_0 : ∀ a, (![7, 0] : Fin 2 → Nat) a + S1x512.size a ≤ S8x512.size a
  packedbf16_S1024x512_S128x512_896_0 : (Rect.unit (s := S1024x512) ![896, 0] S128x512.size inb_S1024x512_S128x512_896_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S2048x1024_S2048x1024 : S2048x1024.ShapeCasts S2048x1024
  shapeCasts_S4096x18432_S2x2048x18432 : S4096x18432.ShapeCasts S2x2048x18432
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x7168.size a
  hwx0_0 : ∀ i : grid0.Coords, EltTy.bits .bf16 = 32 ∨ (Rect.block (s := S4096x7168) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S18432x7168.size a
  hwx0_1 : ∀ i : grid0.Coords, EltTy.bits .f32 = 32 ∨ (Rect.block (s := S18432x7168) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S144x7168.size a
  hwx0_2 : ∀ i : grid0.Coords, EltTy.bits .f32 = 32 ∨ (Rect.block (s := S144x7168) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x18432.size a
  hwx0_3 : ∀ i : grid0.Coords, EltTy.bits .f32 = 32 ∨ (Rect.block (s := S4096x18432) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x7168 : Shape := ⟨3, ![2, 2048, 7168]⟩
abbrev S18432x7168 : Shape := ⟨2, ![18432, 7168]⟩
abbrev S144x56 : Shape := ⟨2, ![144, 56]⟩
abbrev S144x128x56x128 : Shape := ⟨4, ![144, 128, 56, 128]⟩
abbrev S144x1x56x1 : Shape := ⟨4, ![144, 1, 56, 1]⟩
abbrev S2x2048x18432 : Shape := ⟨3, ![2, 2048, 18432]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x7168, .f32⟩
  | .hbm, ⟨1, _⟩ => ⟨S18432x7168, .f32⟩
  | .hbm, ⟨2, _⟩ => ⟨S144x56, .f32⟩
  | .hbm, ⟨3, _⟩ => ⟨S144x128x56x128, .f32⟩
  | .hbm, ⟨4, _⟩ => ⟨S144x1x56x1, .f32⟩
  | .hbm, ⟨5, _⟩ => ⟨S144x128x56x128, .f32⟩
  | .hbm, ⟨6, _⟩ => ⟨S144x128x56x128, .f32⟩
  | .hbm, ⟨7, _⟩ => ⟨S18432x7168, .f32⟩
  | .hbm, ⟨8, _⟩ => ⟨S2x2048x18432, .f32⟩
  | _, _ => ⟨S2x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S18432x7168_S144x128x56x128 : S18432x7168.ShapeCasts S144x128x56x128
  bcast_S144x56_S144x1x56x1_0_2 : S144x56.BroadcastsInDim S144x1x56x1 (![0, 2] : Fin 2 → Fin S144x1x56x1.rank)
  bcast_S144x1x56x1_S144x128x56x128_0_1_2_3 : S144x1x56x1.BroadcastsInDim S144x128x56x128 (![0, 1, 2, 3] : Fin 4 → Fin S144x128x56x128.rank)
  shapeCasts_S144x128x56x128_S18432x7168 : S144x128x56x128.ShapeCasts S18432x7168
  dot_S2x2048x7168_S18432x7168_S2x2048x18432_2_1_01_0_n_n_wf : DotDims.WF S2x2048x7168 S18432x7168 S2x2048x18432 [2] [1] [0, 1] [0] [] []

variable [Facts₀]

def dot_S2x2048x7168_S18432x7168_S2x2048x18432_2_1_01_0_n_n : DotDims S2x2048x7168 S18432x7168 S2x2048x18432 where
  lhsContracting := [2]
  rhsContracting := [1]
  lhsNonContracting := [0, 1]
  rhsNonContracting := [0]
  lhsBatch := []
  rhsBatch := []
  wf := dot_S2x2048x7168_S18432x7168_S2x2048x18432_2_1_01_0_n_n_wf

class Facts : Prop extends Facts₀ where

variable [Facts]
-- ==== Proof.Tile.lean ====
import Idealize.ShloMosaic.PureOps.Ideal
import Idealize.ShloMosaic.Lib.ValueIdx
import Mathlib.Logic.Equiv.Fin.Basic
import Mathlib.Algebra.BigOperators.Group.Finset.Basic

/-!
# A block-scaled linear map, whole and by tiles

The map sends activations `X` [4096, 7168], weight codes `W` [18432, 7168] and scales `S` [144, 7168]
(one scale per group of 128 output rows, per input column) to
`Y r o = ∑ k, X r k * (W o k * S (o / 128) k)`.
The same sum, cut along `k` into 14 consecutive runs of 512, is the sum over the runs of the product of a
[2048, 512] tile of `X` with a [1024, 512] tile of the scaled weights. Only regrouping of a finite sum in a
commutative monoid is used, so the statement holds on the extended reals with no finiteness assumption.
-/

noncomputable section

open Idealize.ShloMosaic Idealize.ShloMosaic.ValueIdx

namespace Cert.ScaledLinear

/-- A sum over `m * n` indices regrouped as `m` consecutive runs of `n`. -/
theorem sum_runs {β : Type*} [AddCommMonoid β] (m n : ℕ) (f : Fin (m * n) → β) :
    ∑ k, f k = ∑ a : Fin m, ∑ b : Fin n, f (finProdFinEquiv (a, b)) :=
  (Equiv.sum_comp finProdFinEquiv f).symm.trans (Fintype.sum_prod_type _)

/-- Position `b` of run `a` is index `n * a + b`. -/
theorem run_val (m n : ℕ) (a : Fin m) (b : Fin n) : (finProdFinEquiv (a, b) : Fin (m * n)).val = n * a.val + b.val := by
  show b.val + n * a.val = n * a.val + b.val
  omega

/-- The whole map on the flattened rows: `Y r o = ∑ k, X r k * (W o k * S (o / 128) k)`. -/
def scaledDot (X : (⟨2, ![4096, 7168]⟩ : Shape).Idx → EReal) (W : (⟨2, ![18432, 7168]⟩ : Shape).Idx → EReal)
    (S : (⟨2, ![144, 7168]⟩ : Shape).Idx → EReal) : (⟨2, ![4096, 18432]⟩ : Shape).Idx → EReal :=
  fun i => ∑ k : Fin 7168, X (ix2 (i 0) k)
    * (W (ix2 (i 1) k) * S (ix2 ⟨(i 1).val / 128, by have := idx2_lt1 i; omega⟩ k))

/-- One run's contribution to one [2048, 1024] output tile, from a [2048, 512] tile of `X`, a [1024, 512] tile of
    `W` and the matching [8, 512] tile of `S` (row `c / 128` of the scale tile serves weight row `c`). -/
def tileDot (xb : (⟨2, ![2048, 512]⟩ : Shape).Idx → EReal) (wb : (⟨2, ![1024, 512]⟩ : Shape).Idx → EReal)
    (sb : (⟨2, ![8, 512]⟩ : Shape).Idx → EReal) : (⟨2, ![2048, 1024]⟩ : Shape).Idx → EReal :=
  fun y => ∑ kk : Fin 512, xb (ix2 (y 0) kk)
    * (wb (ix2 (y 1) kk) * sb (ix2 ⟨(y 1).val / 128, by have := idx2_lt1 y; omega⟩ kk))

/-- Tile (`bi`, `s`) of `X`: rows `2048 * bi …`, columns `512 * s …`. -/
def xTile (X : (⟨2, ![4096, 7168]⟩ : Shape).Idx → EReal) (bi : Fin 2) (s : Fin 14) :
    (⟨2, ![2048, 512]⟩ : Shape).Idx → EReal :=
  fun z => X (ix2 ⟨2048 * bi.val + (z 0).val, by have := idx2_lt0 z; have := bi.isLt; omega⟩
    ⟨512 * s.val + (z 1).val, by have := idx2_lt1 z; have := s.isLt; omega⟩)

/-- Tile (`bj`, `s`) of `W`: rows `1024 * bj …`, columns `512 * s …`. -/
def wTile (W : (⟨2, ![18432, 7168]⟩ : Shape).Idx → EReal) (bj : Fin 18) (s : Fin 14) :
    (⟨2, ![1024, 512]⟩ : Shape).Idx → EReal :=
  fun z => W (ix2 ⟨1024 * bj.val + (z 0).val, by have := idx2_lt0 z; have := bj.isLt; omega⟩
    ⟨512 * s.val + (z 1).val, by have := idx2_lt1 z; have := s.isLt; omega⟩)

/-- Tile (`bj`, `s`) of `S`: rows `8 * bj …`, columns `512 * s …`. -/
def sTile (S : (⟨2, ![144, 7168]⟩ : Shape).Idx → EReal) (bj : Fin 18) (s : Fin 14) :
    (⟨2, ![8, 512]⟩ : Shape).Idx → EReal :=
  fun z => S (ix2 ⟨8 * bj.val + (z 0).val, by have := idx2_lt0 z; have := bj.isLt; omega⟩
    ⟨512 * s.val + (z 1).val, by have := idx2_lt1 z; have := s.isLt; omega⟩)

/-- THE LAW. Entry `y` of output tile (`bi`, `bj`) of the whole map is the sum over the 14 runs of that run's
    tile product: the column sum regrouped, and `(1024 * bj + c) / 128 = 8 * bj + c / 128`. -/
theorem scaledDot_tiles (X : (⟨2, ![4096, 7168]⟩ : Shape).Idx → EReal) (W : (⟨2, ![18432, 7168]⟩ : Shape).Idx → EReal)
    (S : (⟨2, ![144, 7168]⟩ : Shape).Idx → EReal) (bi : Fin 2) (bj : Fin 18)
    (y : (⟨2, ![2048, 1024]⟩ : Shape).Idx) (i : (⟨2, ![4096, 18432]⟩ : Shape).Idx)
    (h0 : (i 0).val = 2048 * bi.val + (y 0).val) (h1 : (i 1).val = 1024 * bj.val + (y 1).val) :
    scaledDot X W S i = ∑ s : Fin 14, tileDot (xTile X bi s) (wTile W bj s) (sTile S bj s) y := by
  unfold scaledDot tileDot xTile wTile sTile
  refine (sum_runs 14 512 _).trans ?_
  refine Finset.sum_congr rfl fun s _ => Finset.sum_congr rfl fun kk _ => ?_
  have hk := run_val 14 512 s kk
  have hy1 := idx2_lt1 y
  have eX : (ix2 (i 0) (finProdFinEquiv (s, kk)) : (⟨2, ![4096, 7168]⟩ : Shape).Idx)
      = ix2 ⟨2048 * bi.val + (y 0).val, by have := idx2_lt0 y; have := bi.isLt; omega⟩
          ⟨512 * s.val + kk.val, by have := kk.isLt; have := s.isLt; omega⟩ :=
    funext fun a => Fin.ext (by match a with | ⟨0, _⟩ => exact h0 | ⟨1, _⟩ => exact hk)
  have eW : (ix2 (i 1) (finProdFinEquiv (s, kk)) : (⟨2, ![18432, 7168]⟩ : Shape).Idx)
      = ix2 ⟨1024 * bj.val + (y 1).val, by have := bj.isLt; omega⟩
          ⟨512 * s.val + kk.val, by have := kk.isLt; have := s.isLt; omega⟩ :=
    funext fun a => Fin.ext (by match a with | ⟨0, _⟩ => exact h1 | ⟨1, _⟩ => exact hk)
  have eS : (ix2 ⟨(i 1).val / 128, by have := idx2_lt1 i; omega⟩ (finProdFinEquiv (s, kk)) : (⟨2, ![144, 7168]⟩ : Shape).Idx)
      = ix2 ⟨8 * bj.val + (y 1).val / 128, by have := bj.isLt; omega⟩
          ⟨512 * s.val + kk.val, by have := kk.isLt; have := s.isLt; omega⟩ :=
    funext fun a => Fin.ext (by
      match a with
      | ⟨0, _⟩ => show (i 1).val / 128 = 8 * bj.val + (y 1).val / 128; omega
      | ⟨1, _⟩ => exact hk)
  rw [eX, eW, eS]

end Cert.ScaledLinear

end
-- ==== Proof.Pieces.lean ====
import proofs.«402235_j25537875542555_3_alg».proof.Proof.Gen.KernelIdeal.Frame
import proofs.«402235_j25537875542555_3_alg».proof.Proof.Tile
import Idealize.ShloMosaic.Lib.Pipeline.Value
import Idealize.ShloMosaic.Lib.Tactic
import Idealize.ShloMosaic.PureOps.Ideal.Laws

/-!
# One grid point of the kernel, as a function of its blocks

At a grid point the body first rewrites its scratch tile: for each of the eight groups of 128 weight rows it
stores `w * s` (the scale row of the group broadcast down the rows; the change of float format is the identity on
the extended reals). Read back whole, the scratch is the dequantised tile `dq w s`, entry `(r, k)` being
`w r k * s (r / 128) k`. The body then leaves `acc + x · (dq w s)ᵀ` in the output block, where `acc` is the zero
block at the first point of a run and what the point before left otherwise. At an index this is
`acc y + ∑ kk, x (y₀, kk) * (w (y₁, kk) * s (y₁ / 128, kk))`.
-/

set_option maxRecDepth 16384

noncomputable section

namespace Cert.KernelIdeal.Accum

open Cert.KernelIdeal Cert.KernelIdeal.Gen Cert.ScaledLinear
open Idealize.ShloMosaic Idealize.ShloMosaic.TcCoe Idealize.ShloMosaic.Tactic Idealize.ShloMosaic.ValueIdx Idealize.SL.Sem

theorem zeroOff : (![0, 0] : Fin 2 → Nat) = fun _ => 0 := funext fun a => by fin_cases a <;> rfl

/-- The dequantised weight tile: entry `(r, k)` is `w r k * s (r / 128) k`. -/
def dq (x1 : Vec Ideal S1024x512 .f32) (x2 : Vec Ideal S8x512 .f32) : Vec Ideal S1024x512 .bf16 :=
  fun z => (x1 z : EReal) * (x2 (ix2 ⟨(z 0).val / 128, by have := idx2_lt0 z; omega⟩ (z 1)) : EReal)

/-- One group's stripe at an index: the 128 weight rows times the group's scale row, the row broadcast down the
    stripe; the shape casts to the same shape and the change of format do nothing. -/
theorem stripe_apply (v : Vec Ideal S128x512 .f32) (s : Vec Ideal S1x512 .f32)
    (h1 : S1x512.ShapeCasts S1x512) (h2 : S1x512.Broadcasts S128x512) (h3 : FTy.bits .bf16 < FTy.bits .f32)
    (h4 : S128x512.ShapeCasts S128x512) (x : S128x512.Idx) :
    (shapeCast S128x512 (truncf .bf16 (mulf v (broadcastTo S128x512 (shapeCast S1x512 s h1) h2)) h3) h4 : FVec Ideal S128x512 .bf16) x
      = (v x : EReal) * (s (ix2 0 (x 1)) : EReal) := by
  rw [shapeCast_self, shapeCast_self]
  show (v x : EReal) * (broadcastTo S128x512 s h2 x : EReal) = _
  rw [broadcastTo_apply s h2 x (ix2 0 (x 1)) (fun a => by
    match a with
    | ⟨0, _⟩ => show 0 = if (1 : Nat) = 1 then 0 else _; rw [if_pos rfl]
    | ⟨1, _⟩ => show (x 1).val = if (512 : Nat) = 1 then 0 else _; rw [if_neg (by decide)]; rfl)]

/-- The stripe of rows `ro = 128 * a …` with scale row `a` is the restriction of `dq` to those rows:
    `(128 * a + r) / 128 = a` for `r < 128`. -/
theorem stripe_in_tile (x1 : Vec Ideal S1024x512 .f32) (x2 : Vec Ideal S8x512 .f32) (ro a : ℕ) (h : ro = 128 * a)
    (inb1 : ∀ d, (![ro, 0] : Fin 2 → Nat) d + S128x512.size d ≤ S1024x512.size d)
    (inb2 : ∀ d, (![a, 0] : Fin 2 → Nat) d + S1x512.size d ≤ S8x512.size d) (x : S128x512.Idx) :
    (View.ld x1 (Rect.unit ![ro, 0] S128x512.size inb1) x : EReal)
        * (View.ld x2 (Rect.unit ![a, 0] S1x512.size inb2) (ix2 0 (x 1)) : EReal)
      = dq x1 x2 ((Rect.unit (s := S1024x512) ![ro, 0] S128x512.size inb1).emb x) := by
  unfold dq
  show (x1 ((Rect.unit (s := S1024x512) ![ro, 0] S128x512.size inb1).emb x) : EReal)
      * (x2 ((Rect.unit (s := S8x512) ![a, 0] S1x512.size inb2).emb (ix2 0 (x 1))) : EReal) = _
  refine congrArg (_ * ·) (congrArg x2 (funext fun d => Fin.ext ?_))
  have hx0 := idx2_lt0 x
  match d with
  | ⟨0, _⟩ => show a + 1 * 0 = (ro + 1 * (x 0).val) / 128; omega
  | ⟨1, _⟩ => show 0 + 1 * (x 1).val = 0 + 1 * (x 1).val; rfl

/-- The eight stripes the body stores into its scratch tile, last store first. -/
def stripes (x1 : Vec Ideal S1024x512 .f32) (x2 : Vec Ideal S8x512 .f32) : List (View.Piece (Elt Ideal) S1024x512 .bf16) :=
  [
    ⟨Rect.unit ![896, 0] S128x512.size inb_S1024x512_S128x512_896_0,
      k0_pay1 (View.ld x1 (Rect.unit ![896, 0] S128x512.size inb_S1024x512_S128x512_896_0)) (View.ld x2 (Rect.unit ![7, 0] S1x512.size inb_S8x512_S1x512_7_0))⟩,
    ⟨Rect.unit ![768, 0] S128x512.size inb_S1024x512_S128x512_768_0,
      k0_pay10 (View.ld x1 (Rect.unit ![768, 0] S128x512.size inb_S1024x512_S128x512_768_0)) (View.ld x2 (Rect.unit ![6, 0] S1x512.size inb_S8x512_S1x512_6_0))⟩,
    ⟨Rect.unit ![640, 0] S128x512.size inb_S1024x512_S128x512_640_0,
      k0_pay9 (View.ld x1 (Rect.unit ![640, 0] S128x512.size inb_S1024x512_S128x512_640_0)) (View.ld x2 (Rect.unit ![5, 0] S1x512.size inb_S8x512_S1x512_5_0))⟩,
    ⟨Rect.unit ![512, 0] S128x512.size inb_S1024x512_S128x512_512_0,
      k0_pay8 (View.ld x1 (Rect.unit ![512, 0] S128x512.size inb_S1024x512_S128x512_512_0)) (View.ld x2 (Rect.unit ![4, 0] S1x512.size inb_S8x512_S1x512_4_0))⟩,
    ⟨Rect.unit ![384, 0] S128x512.size inb_S1024x512_S128x512_384_0,
      k0_pay7 (View.ld x1 (Rect.unit ![384, 0] S128x512.size inb_S1024x512_S128x512_384_0)) (View.ld x2 (Rect.unit ![3, 0] S1x512.size inb_S8x512_S1x512_3_0))⟩,
    ⟨Rect.unit ![256, 0] S128x512.size inb_S1024x512_S128x512_256_0,
      k0_pay6 (View.ld x1 (Rect.unit ![256, 0] S128x512.size inb_S1024x512_S128x512_256_0)) (View.ld x2 (Rect.unit ![2, 0] S1x512.size inb_S8x512_S1x512_2_0))⟩,
    ⟨Rect.unit ![128, 0] S128x512.size inb_S1024x512_S128x512_128_0,
      k0_pay5 (View.ld x1 (Rect.unit ![128, 0] S128x512.size inb_S1024x512_S128x512_128_0)) (View.ld x2 (Rect.unit ![1, 0] S1x512.size inb_S8x512_S1x512_1_0))⟩,
    ⟨Rect.unit ![0, 0] S128x512.size inb_S1024x512_S128x512_0_0,
      k0_pay4 (View.ld x1 (Rect.unit ![0, 0] S128x512.size inb_S1024x512_S128x512_0_0)) (View.ld x2 (Rect.unit ![0, 0] S1x512.size inb_S8x512_S1x512_0_0))⟩ ]

/-- The eight stripes tile the scratch. -/
theorem stripes_cover (x1 : Vec Ideal S1024x512 .f32) (x2 : Vec Ideal S8x512 .f32) :
    ∀ y : S1024x512.Idx, ∃ p ∈ stripes x1 x2, y ∈ p.1.set :=
  View.cover_of_tiledL (stripes x1 x2) S128x512.size (by unfold stripes; sl_kernel_rfl)

/-- Each stripe restricts `dq`. -/
theorem stripes_restrict (x1 : Vec Ideal S1024x512 .f32) (x2 : Vec Ideal S8x512 .f32) :
    ∀ p ∈ stripes x1 x2, ∀ x : p.1.shape.Idx, p.2 x = dq x1 x2 (p.1.emb x) := by
  intro p hp x
  unfold stripes at hp
  simp only [List.mem_cons, List.mem_singleton, List.not_mem_nil, or_false] at hp
  rcases hp with rfl | rfl | rfl | rfl | rfl | rfl | rfl | rfl
  · exact (stripe_apply _ _ _ _ _ _ x).trans (stripe_in_tile x1 x2 896 7 rfl _ _ x)
  · exact (stripe_apply _ _ _ _ _ _ x).trans (stripe_in_tile x1 x2 768 6 rfl _ _ x)
  · exact (stripe_apply _ _ _ _ _ _ x).trans (stripe_in_tile x1 x2 640 5 rfl _ _ x)
  · exact (stripe_apply _ _ _ _ _ _ x).trans (stripe_in_tile x1 x2 512 4 rfl _ _ x)
  · exact (stripe_apply _ _ _ _ _ _ x).trans (stripe_in_tile x1 x2 384 3 rfl _ _ x)
  · exact (stripe_apply _ _ _ _ _ _ x).trans (stripe_in_tile x1 x2 256 2 rfl _ _ x)
  · exact (stripe_apply _ _ _ _ _ _ x).trans (stripe_in_tile x1 x2 128 1 rfl _ _ x)
  · exact (stripe_apply _ _ _ _ _ _ x).trans (stripe_in_tile x1 x2 0 0 rfl _ _ x)

/-- The scratch tile read back whole after the eight stores is the dequantised tile. -/
theorem scratch_eq {κ : Kind} {sp : Space} (v : View sig κ sp S1024x512 .bf16) (x1 : Vec Ideal S1024x512 .f32) (x2 : Vec Ideal S8x512 .f32) :
    v.readCov (stripes x1 x2) (Rect.unit ![0, 0] S1024x512.size inb_S1024x512_S1024x512_0_0).toLoadRect = dq x1 x2 := by
  rw [View.readCov_eq_canon_ld _ _ _ (stripes_cover x1 x2), View.ld_unit_zero (S := S1024x512) zeroOff]
  funext z
  exact View.canon_apply_of_pieces (dq x1 x2) _ (stripes_restrict x1 x2) z (stripes_cover x1 x2 z)

/-- What one grid point leaves in the output block over `acc`. -/
def step (x0 : Vec Ideal S2048x512 .bf16) (x1 : Vec Ideal S1024x512 .f32) (x2 : Vec Ideal S8x512 .f32)
    (acc : Vec Ideal S2048x1024 .f32) : Vec Ideal S2048x1024 .f32 :=
  k0_pay2 x0 (dq x1 x2) acc

/-- A point that is not the first of its run: one covering store, over what the point before left. -/
theorem out_B (c : Dev nD) (i : grid0.Coords) (arg3 : Memref sig .tc .vmem S2048x512 .bf16) (harg3 : arg3.IsWhole) (arg4 : Memref sig .tc .vmem S1024x512 .f32) (harg4 : arg4.IsWhole) (arg5 : Memref sig .tc .vmem S8x512 .f32) (harg5 : arg5.IsWhole) (arg6 : Memref sig .tc .vmem S2048x1024 .f32) (harg6 : arg6.IsWhole) (arg7 : Memref sig .tc .vmem S1024x512 .bf16) (harg7 : arg7.IsWhole) (hc0 : ¬cond0_0 i)
    (x0 : Vec Ideal S2048x512 .bf16) (x1 : Vec Ideal S1024x512 .f32) (x2 : Vec Ideal S8x512 .f32) (xo3 : Vec Ideal S2048x1024 .f32) :
    out0_B_3 c i arg3 harg3 arg4 harg4 arg5 harg5 arg6 harg6 arg7 harg7 hc0 x0 x1 x2 xo3 = step x0 x1 x2 xo3 := by
  unfold out0_B_3
  rw [View.read_writes_eq_canon _ _ _ (cover0_B_3 c i arg3 harg3 arg4 harg4 arg5 harg5 arg6 harg6 arg7 harg7 hc0 x0 x1 x2 xo3)]
  unfold kernelRun0_B
  dsimp only
  sl_unfold_words
  rw [View.canon_unit_zero zeroOff]
  simp only [View.readAt_eq_ld, harg3.read_unread, harg4.read_unread, harg5.read_unread, harg6.read_unread,
    View.ld_unit_zero (S := S2048x512) zeroOff, View.ld_unit_zero (S := S2048x1024) zeroOff]
  exact congrArg (fun s => k0_pay2 x0 s xo3) (scratch_eq arg7.view x1 x2)

/-- The first point of a run: the zero block is stored and read back, then one covering store over it. -/
theorem out_A (c : Dev nD) (i : grid0.Coords) (arg3 : Memref sig .tc .vmem S2048x512 .bf16) (harg3 : arg3.IsWhole) (arg4 : Memref sig .tc .vmem S1024x512 .f32) (harg4 : arg4.IsWhole) (arg5 : Memref sig .tc .vmem S8x512 .f32) (harg5 : arg5.IsWhole) (arg6 : Memref sig .tc .vmem S2048x1024 .f32) (harg6 : arg6.IsWhole) (arg7 : Memref sig .tc .vmem S1024x512 .bf16) (harg7 : arg7.IsWhole) (hc0 : cond0_0 i)
    (x0 : Vec Ideal S2048x512 .bf16) (x1 : Vec Ideal S1024x512 .f32) (x2 : Vec Ideal S8x512 .f32) :
    out0_A_3 c i arg3 harg3 arg4 harg4 arg5 harg5 arg6 harg6 arg7 harg7 hc0 x0 x1 x2 = step x0 x1 x2 (k0_pay3 (F := Ideal)) := by
  unfold out0_A_3
  rw [View.read_writes_eq_canon _ _ _ (cover0_A_3 c i arg3 harg3 arg4 harg4 arg5 harg5 arg6 harg6 arg7 harg7 hc0 x0 x1 x2)]
  unfold kernelRun0_A
  dsimp only
  sl_unfold_words
  rw [View.canon_cons_unit_zero (S := S2048x1024) zeroOff, View.readCov_unit_zero (S := S2048x1024) _ zeroOff]
  simp only [View.readAt_eq_ld, harg3.read_unread, harg4.read_unread, harg5.read_unread,
    View.ld_unit_zero (S := S2048x512) zeroOff]
  exact congrArg (fun s => k0_pay2 x0 s (k0_pay3 (F := Ideal))) (scratch_eq arg7.view x1 x2)

/-- The block a run starts from is zero everywhere. -/
theorem zero_apply (y : S2048x1024.Idx) : (k0_pay3 (F := Ideal) y : EReal) = 0 := by
  show Ideal.ofBits .f32 0x00000000#32 = 0
  exact Ideal.ofBits_zero_f32

/-! The tile product contracts axis 1 of both operands: output axis 0 is the left operand's row, output axis 1 the
    right operand's row, and the one contraction coordinate is the column of both. -/

theorem lhs_tile_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_tile_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_tile_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_tile_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- ONE POINT AT AN INDEX: what the point leaves at `y` is what it found there plus this run's tile product at `y`,
    `∑ kk, x (y₀, kk) * (w (y₁, kk) * s (y₁ / 128, kk))` (the matrix unit into a zero accumulator is the plain sum). -/
theorem step_apply (x0 : Vec Ideal S2048x512 .bf16) (x1 : Vec Ideal S1024x512 .f32) (x2 : Vec Ideal S8x512 .f32)
    (acc : Vec Ideal S2048x1024 .f32) (y : S2048x1024.Idx) :
    (step x0 x1 x2 acc y : EReal) = (acc y : EReal) + tileDot x0 x1 x2 y := by
  unfold step k0_pay2
  rw [shapeCast_self, shapeCast_self]
  show (acc y : EReal) + FloatOps.matmul (F := Ideal) dot_S2048x512_S1024x512_S2048x1024_1_1_0_0_n_n none x0 (dq x1 x2) (constant (F := Ideal) S2048x1024 .f32 0x00000000#32) y = _
  rw [Ideal.matmul_constant_zero_apply, ← Equiv.sum_comp (contrEquiv1 dot_S2048x512_S1024x512_S2048x1024_1_1_0_0_n_n 512 rfl rfl).symm]
  unfold tileDot
  refine congrArg (_ + ·) (Finset.sum_congr rfl fun k _ => ?_)
  have hk := contrEquiv1_symm_val dot_S2048x512_S1024x512_S2048x1024_1_1_0_0_n_n 512 rfl rfl k
  have el : dot_S2048x512_S1024x512_S2048x1024_1_1_0_0_n_n.lhsIdx y ((contrEquiv1 dot_S2048x512_S1024x512_S2048x1024_1_1_0_0_n_n 512 rfl rfl).symm k) = ix2 (y 0) k := funext fun a => Fin.ext (by
    match a with
    | ⟨0, _⟩ => exact lhs_tile_0 _ _
    | ⟨1, _⟩ => exact (lhs_tile_1 _ _).trans hk)
  have er : dot_S2048x512_S1024x512_S2048x1024_1_1_0_0_n_n.rhsIdx y ((contrEquiv1 dot_S2048x512_S1024x512_S2048x1024_1_1_0_0_n_n 512 rfl rfl).symm k) = ix2 (y 1) k := funext fun a => Fin.ext (by
    match a with
    | ⟨0, _⟩ => exact rhs_tile_0 _ _
    | ⟨1, _⟩ => exact (rhs_tile_1 _ _).trans hk)
  rw [el, er]
  rfl

end Cert.KernelIdeal.Accum

end
-- ==== Proof.Fold.lean ====
import proofs.«402235_j25537875542555_3_alg».proof.Proof.Pieces

/-!
# A run of fourteen consecutive grid points

The grid is walked with the reduction axis innermost, so points `14 q, …, 14 q + 13` share one output block. The
first resets it to zero and adds its tile product, each later one adds its own to what the point before left. After
point `14 q + j` the block therefore holds, at every index, `0` plus the sum of the tile products of points
`14 q … 14 q + j`: a fold of additions, unrolled by induction on `j`.
-/

set_option maxRecDepth 16384

noncomputable section

namespace Cert.KernelIdeal.Accum

open Cert.KernelIdeal Cert.KernelIdeal.Gen Cert.ScaledLinear
open Idealize.ShloMosaic Idealize.ShloMosaic.TcCoe Idealize.ShloMosaic.ValueIdx Idealize.SL.Sem

variable (m : (ℓ : Loc nD τ sig) → Buf (Elt Ideal) ℓ)

/-- The three input blocks at a grid point, at their literal types. -/
abbrev xblk (c : Dev nD) (t : Fin cfg0.N) : Vec Ideal S2048x512 .bf16 := iblk m c 0 t
abbrev wblk (c : Dev nD) (t : Fin cfg0.N) : Vec Ideal S1024x512 .f32 := iblk m c 1 t
abbrev sblk (c : Dev nD) (t : Fin cfg0.N) : Vec Ideal S8x512 .f32 := iblk m c 2 t

/-- What a run's first point leaves: its tile product over the zero block. -/
def resetAt (c : Dev nD) (n : ℕ) (h : n < cfg0.N) : S2048x1024.Idx → EReal :=
  step (xblk m c ⟨n, h⟩) (wblk m c ⟨n, h⟩) (sblk m c ⟨n, h⟩) (k0_pay3 (F := Ideal))

/-- What a later point leaves over the block `acc` it found. -/
def stepAt (c : Dev nD) (n : ℕ) (h : n < cfg0.N) (acc : S2048x1024.Idx → EReal) : S2048x1024.Idx → EReal :=
  step (xblk m c ⟨n, h⟩) (wblk m c ⟨n, h⟩) (sblk m c ⟨n, h⟩) acc

/-- The tile product of grid point `n` (zero past the grid: never used there). -/
def addend (c : Dev nD) (n : ℕ) : S2048x1024.Idx → EReal := fun y =>
  if h : n < cfg0.N then tileDot (xblk m c ⟨n, h⟩) (wblk m c ⟨n, h⟩) (sblk m c ⟨n, h⟩) y else 0

theorem outsAt_reset (c : Dev nD) (n : ℕ) (h : n < cfg0.N) (h0 : n % 14 = 0) : outsAt0 m c n h = resetAt m c n h :=
  (outsAt0_A m c ⟨n, h⟩ h0).trans
    (out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (iblk m c 0 ⟨n, h⟩) (iblk m c 1 ⟨n, h⟩) (iblk m c 2 ⟨n, h⟩))

theorem outsAt_step (c : Dev nD) (n : ℕ) (h : n + 1 < cfg0.N) (h0 : ¬(n + 1) % 14 = 0) :
    outsAt0 m c (n + 1) h = stepAt m c (n + 1) h (outsAt0 m c n (Nat.lt_of_succ_lt h)) :=
  (outsAt0_B m c ⟨n + 1, h⟩ h0).trans
    (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (iblk m c 0 ⟨n + 1, h⟩) (iblk m c 1 ⟨n + 1, h⟩) (iblk m c 2 ⟨n + 1, h⟩)
      (outsAt0 m c n (Nat.lt_of_succ_lt h)))

/-- THE RUN UNROLLED: after point `14 q + j` (`j ≤ 13`) the output block holds `0` plus the tile products of the
    run's points so far. -/
theorem run_apply (c : Dev nD) (q j : ℕ) (hj : j ≤ 13) (h : 14 * q + j < cfg0.N) (y : S2048x1024.Idx) :
    (outsAt0 m c (14 * q + j) h y : EReal) = 0 + ∑ s ∈ Finset.range (j + 1), addend m c (14 * q + s) y := by
  have e := Pipeline.eq_accAt (α := S2048x1024.Idx → EReal) (outsAt0 m c) 14 (resetAt m c) (stepAt m c)
    (outsAt_reset m c) (outsAt_step m c) q j (by omega) h
  rw [show outsAt0 m c (14 * q + j) h = _ from e]
  refine Pipeline.accAt_add_apply (ι := S2048x1024.Idx) (β := EReal) (resetAt m c) (stepAt m c) (fun _ => 0) (addend m c)
    (14 * q) 13 ?_ ?_ j hj h y
  · intro hb i
    unfold resetAt addend
    rw [dif_pos hb, step_apply, zero_apply]
  · intro n hn acc i _ _
    unfold stepAt addend
    rw [dif_pos hn, step_apply]

end Cert.KernelIdeal.Accum

end
-- ==== Proof.Blocks.lean ====
import proofs.«402235_j25537875542555_3_alg».proof.Proof.Fold

/-!
# From the output blocks to the output array

Grid point `t` is `(t / 252, t / 14 % 18, t % 14)`: a tile row of the activations, a tile row of the weights, a run of
512 columns. Its three input blocks are the matching tiles of the arrays the region finds, and its output block is
written back at the last point of each run of fourteen. By then the block holds the sum over the fourteen runs of the
tile products, which is the whole scaled product restricted to the block (`Cert.ScaledLinear.scaledDot_tiles`). The 36
blocks written back tile the [4096, 18432] array, so after the region it holds the whole scaled product.
-/

set_option maxRecDepth 16384

noncomputable section

namespace Cert.KernelIdeal.Accum

open Cert.KernelIdeal Cert.KernelIdeal.Gen Cert.ScaledLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three arrays as the region finds them, at their literal types. -/
abbrev Xarr (c : Dev nD) : Vec Ideal S4096x7168 .bf16 := V m c main_v1
abbrev Warr (c : Dev nD) : Vec Ideal S18432x7168 .f32 := V m c main_arg1
abbrev Sarr (c : Dev nD) : Vec Ideal S144x7168 .f32 := V m c main_v3

/-- The printed index maps over the grid: point `t` is (`t / 252`, `t / 14 % 18`, `t % 14`). -/
theorem index_facts : ∀ t : Fin cfg0.N,
    win0_0.index t (0 : Fin 2) = t.val / 252 ∧ win0_0.index t (1 : Fin 2) = t.val % 14
    ∧ win0_1.index t (0 : Fin 2) = t.val / 14 % 18 ∧ win0_1.index t (1 : Fin 2) = t.val % 14
    ∧ win0_2.index t (0 : Fin 2) = t.val / 14 % 18 ∧ win0_2.index t (1 : Fin 2) = t.val % 14
    ∧ win0_3.index t (0 : Fin 2) = t.val / 252 ∧ win0_3.index t (1 : Fin 2) = t.val / 14 % 18 :=
  (by decide +kernel : ∀ t : Fin grid0.N, _)

theorem lt504 (t : Fin cfg0.N) : t.val < 504 := lt_of_lt_of_eq t.isLt (show cfg0.N = 504 from N_0)

/-- The activation block at a point is the tile (`t / 252`, `t % 14`) of the activations. -/
theorem xblk_eq (c : Dev nD) (t : Fin cfg0.N) (bi : Fin 2) (s : Fin 14) (hi : t.val / 252 = bi.val) (hs : t.val % 14 = s.val) :
    xblk m c t = xTile (Xarr m c) bi s := by
  obtain ⟨e0, e1, -⟩ := index_facts t
  funext z
  unfold xTile
  show iblk m c 0 t z = _
  unfold iblk
  rw [View.read_apply]
  show V m c main_v1 _ = V m c main_v1 _
  refine congrArg (V m c main_v1) (funext fun a => Fin.ext ?_)
  match a with
  | ⟨0, _⟩ => show win0_0.index t (0 : Fin 2) * 2048 + 1 * (z 0).val = 2048 * bi.val + (z 0).val; rw [e0, hi]; omega
  | ⟨1, _⟩ => show win0_0.index t (1 : Fin 2) * 512 + 1 * (z 1).val = 512 * s.val + (z 1).val; rw [e1, hs]; omega

/-- The weight block at a point is the tile (`t / 14 % 18`, `t % 14`) of the weight codes. -/
theorem wblk_eq (c : Dev nD) (t : Fin cfg0.N) (bj : Fin 18) (s : Fin 14) (hj : t.val / 14 % 18 = bj.val) (hs : t.val % 14 = s.val) :
    wblk m c t = wTile (Warr m c) bj s := by
  obtain ⟨-, -, e2, e3, -⟩ := index_facts t
  funext z
  unfold wTile
  show iblk m c 1 t z = _
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * (z 0).val = 1024 * bj.val + (z 0).val; rw [e2, hj]; omega
  | ⟨1, _⟩ => show win0_1.index t (1 : Fin 2) * 512 + 1 * (z 1).val = 512 * s.val + (z 1).val; rw [e3, hs]; omega

/-- The scale block at a point is the tile (`t / 14 % 18`, `t % 14`) of the expanded scales. -/
theorem sblk_eq (c : Dev nD) (t : Fin cfg0.N) (bj : Fin 18) (s : Fin 14) (hj : t.val / 14 % 18 = bj.val) (hs : t.val % 14 = s.val) :
    sblk m c t = sTile (Sarr m c) bj s := by
  obtain ⟨-, -, -, -, e4, e5, -⟩ := index_facts t
  funext z
  unfold sTile
  show iblk m c 2 t z = _
  unfold iblk
  rw [View.read_apply]
  show V m c main_v3 _ = V m c main_v3 _
  refine congrArg (V m c main_v3) (funext fun a => Fin.ext ?_)
  match a with
  | ⟨0, _⟩ => show win0_2.index t (0 : Fin 2) * 8 + 1 * (z 0).val = 8 * bj.val + (z 0).val; rw [e4, hj]; omega
  | ⟨1, _⟩ => show win0_2.index t (1 : Fin 2) * 512 + 1 * (z 1).val = 512 * s.val + (z 1).val; rw [e5, hs]; omega

/-- What the [4096, 18432] array holds after the region: the whole scaled product of the arrays the region finds. -/
abbrev result (c : Dev nD) : Buf (Elt Ideal) ((c : Thread nD τ).loc main_v4) :=
  scaledDot (Xarr m c) (Warr m c) (Sarr m c)

/-- WHAT A WRITE-BACK WRITES: at the last point of a run the block is the result's block. -/
theorem flushed_eq (c : Dev nD) (t : Fin cfg0.N) (hf : (cfg0.win 3).flush t = true) :
    (dats m 0 c).flushed 3 t = ((cfg0.win 3).blk t).view.read (Elt Ideal) (result m c) := by
  have h13 : t.val % 14 = 13 := (flush0_3 t).mp hf
  have hN := lt504 t
  have hcN : cfg0.N = 504 := N_0
  obtain ⟨-, -, -, -, -, -, e6, e7⟩ := index_facts t
  show (cfg0.win 3).cut (grid0.coords t) ((dats m 0 c).after 3 t) = _
  rw [after0_3]
  funext y
  show (outsAt0 m c t.val t.isLt y : EReal) = scaledDot (Xarr m c) (Warr m c) (Sarr m c) (((cfg0.win 3).blk t).view.emb y)
  have same : ∀ (u : ℕ) (hu : u < cfg0.N), u = t.val → outsAt0 m c u hu = outsAt0 m c t.val t.isLt :=
    fun u hu e => by subst e; rfl
  have hy0 := idx2_lt0 y
  have hy1 := idx2_lt1 y
  rw [← same (14 * (t.val / 14) + 13) (by omega) (by omega), run_apply m c (t.val / 14) 13 (le_refl _) (by omega) y,
    zero_add, Finset.sum_range,
    scaledDot_tiles (Xarr m c) (Warr m c) (Sarr m c) ⟨t.val / 252, by omega⟩ ⟨t.val / 14 % 18, by omega⟩ y _
      (by show win0_3.index t (0 : Fin 2) * 2048 + 1 * (y 0).val = 2048 * (t.val / 252) + (y 0).val; rw [e6]; omega)
      (by show win0_3.index t (1 : Fin 2) * 1024 + 1 * (y 1).val = 1024 * (t.val / 14 % 18) + (y 1).val; rw [e7]; omega)]
  refine Finset.sum_congr rfl fun s _ => ?_
  have hs := s.isLt
  have hp : 14 * (t.val / 14) + s.val < cfg0.N := by omega
  unfold addend
  rw [dif_pos hp,
    xblk_eq m c ⟨14 * (t.val / 14) + s.val, hp⟩ ⟨t.val / 252, by omega⟩ s (by show (14 * (t.val / 14) + s.val) / 252 = t.val / 252; omega) (by show (14 * (t.val / 14) + s.val) % 14 = s.val; omega),
    wblk_eq m c ⟨14 * (t.val / 14) + s.val, hp⟩ ⟨t.val / 14 % 18, by omega⟩ s (by show (14 * (t.val / 14) + s.val) / 14 % 18 = t.val / 14 % 18; omega) (by show (14 * (t.val / 14) + s.val) % 14 = s.val; omega),
    sblk_eq m c ⟨14 * (t.val / 14) + s.val, hp⟩ ⟨t.val / 14 % 18, by omega⟩ s (by show (14 * (t.val / 14) + s.val) / 14 % 18 = t.val / 14 % 18; omega) (by show (14 * (t.val / 14) + s.val) % 14 = s.val; omega)]

/-- An index of the array is in point `t`'s block iff each coordinate is in the block's range on its axis. -/
theorem mem_blk (t : Fin cfg0.N) (i : S4096x18432.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v4).slice (win0_3.rect t)).set ↔ _
  rw [View.set_slice_whole, Rect.mem_set_unit]
  exact Iff.rfl

/-- Every index of the array lies in the block written back at the end of its run: row tile `r / 2048`, column tile
    `o / 1024`, last run. -/
theorem covered (i : S4096x18432.Idx) : ∃ t : Fin cfg0.N, (cfg0.win 3).flush t = true ∧ i ∈ ((cfg0.win 3).blk t).view.set := by
  have hi0 := idx2_lt0 i
  have hi1 := idx2_lt1 i
  have hcN : cfg0.N = 504 := N_0
  let t : Fin cfg0.N := ⟨((i 0).val / 2048 * 18 + (i 1).val / 1024) * 14 + 13, by omega⟩
  have htv : t.val = ((i 0).val / 2048 * 18 + (i 1).val / 1024) * 14 + 13 := rfl
  obtain ⟨-, -, -, -, -, -, e6, e7⟩ := index_facts t
  refine ⟨t, (flush0_3 t).mpr (by omega), ?_⟩
  rw [mem_blk]
  intro a
  match a with
  | ⟨0, _⟩ => show win0_3.index t (0 : Fin 2) * 2048 ≤ (i 0).val ∧ (i 0).val < win0_3.index t (0 : Fin 2) * 2048 + 2048; rw [e6, htv]; omega
  | ⟨1, _⟩ => show win0_3.index t (1 : Fin 2) * 1024 ≤ (i 1).val ∧ (i 1).val < win0_3.index t (1 : Fin 2) * 1024 + 1024; rw [e7, htv]; omega

/-- THE ARRAY AFTER THE REGION is the whole scaled product. -/
theorem final (c : Dev nD) : (dats m 0 c).arrAt 3 cfg0.N = result m c :=
  (dats m 0 c).arrAt_eq_of_cover 3 (result m c) (flushed_eq m c) covered

end Cert.KernelIdeal.Accum

end
-- ==== Proof.Target.lean ====
import proofs.«402235_j25537875542555_3_alg».proof.Proof.Tile

/-!
# The linear map on the programs' own shapes

`out b s o = ∑ k, x b s k * (w o k * scale (o / 128) (k / 128))`: activations [2, 2048, 7168], weight codes
[18432, 7168], one scale per 128 × 128 block of codes. With the two leading axes flattened to rows and the scales
expanded along the columns it is the scaled product of Tile.lean.
-/

noncomputable section

open Idealize.ShloMosaic Idealize.ShloMosaic.ValueIdx

namespace Cert.ScaledLinear

/-- The map both programs compute. -/
def linearOut (x : (⟨3, ![2, 2048, 7168]⟩ : Shape).Idx → EReal) (w : (⟨2, ![18432, 7168]⟩ : Shape).Idx → EReal)
    (sc : (⟨2, ![144, 56]⟩ : Shape).Idx → EReal) : (⟨3, ![2, 2048, 18432]⟩ : Shape).Idx → EReal :=
  fun i => ∑ k : Fin 7168, x (ix3 (i 0) (i 1) k)
    * (w (ix2 (i 2) k) * sc (ix2 ⟨(i 2).val / 128, by have h : (i 2).val < 18432 := (i 2).isLt; omega⟩
        ⟨k.val / 128, by have := k.isLt; omega⟩))

/-- Row `2048 * b + s` of the flattened activations is row `(b, s)`, and column `k` of the expanded scales is scale
    column `k / 128`: then entry (`2048 * b + s`, `o`) of the scaled product is entry (`b`, `s`, `o`) of the map. -/
theorem scaledDot_rows (x : (⟨3, ![2, 2048, 7168]⟩ : Shape).Idx → EReal) (w : (⟨2, ![18432, 7168]⟩ : Shape).Idx → EReal)
    (sc : (⟨2, ![144, 56]⟩ : Shape).Idx → EReal)
    (X : (⟨2, ![4096, 7168]⟩ : Shape).Idx → EReal) (S : (⟨2, ![144, 7168]⟩ : Shape).Idx → EReal)
    (hX : ∀ (j : (⟨2, ![4096, 7168]⟩ : Shape).Idx) (b : Fin 2) (r : Fin 2048), (j 0).val = 2048 * b.val + r.val → X j = x (ix3 b r (j 1)))
    (hS : ∀ (a : Fin 144) (k : Fin 7168), S (ix2 a k) = sc (ix2 a ⟨k.val / 128, by have := k.isLt; omega⟩))
    (i : (⟨3, ![2, 2048, 18432]⟩ : Shape).Idx) (j : (⟨2, ![4096, 18432]⟩ : Shape).Idx)
    (h0 : (j 0).val = 2048 * (i 0).val + (i 1).val) (h1 : (j 1).val = (i 2).val) :
    scaledDot X w S j = linearOut x w sc i := by
  unfold scaledDot linearOut
  refine Finset.sum_congr rfl fun k _ => ?_
  have e1 : j 1 = i 2 := Fin.ext h1
  rw [hX (ix2 (j 0) k) (i 0) (i 1) h0, hS]
  have eW : (ix2 (j 1) k : (⟨2, ![18432, 7168]⟩ : Shape).Idx) = ix2 (i 2) k := by rw [e1]; rfl
  have eS : (ix2 ⟨(j 1).val / 128, by have := idx2_lt1 j; omega⟩ ⟨k.val / 128, by have := k.isLt; omega⟩ : (⟨2, ![144, 56]⟩ : Shape).Idx)
      = ix2 ⟨(i 2).val / 128, by have h : (i 2).val < 18432 := (i 2).isLt; omega⟩ ⟨k.val / 128, by have := k.isLt; omega⟩ :=
    funext fun a => Fin.ext (by match a with | ⟨0, _⟩ => show (j 1).val / 128 = (i 2).val / 128; rw [h1] | ⟨1, _⟩ => rfl)
  rw [eW, eS]
  rfl

end Cert.ScaledLinear

end
-- ==== Proof.Host.lean ====
import proofs.«402235_j25537875542555_3_alg».proof.Proof.Blocks
import proofs.«402235_j25537875542555_3_alg».proof.Proof.Target
import Idealize.ShloMosaic.Lib.StableHlo.Run

/-!
# The host lines around the region

Before the region the activations' two leading axes are flattened to 4096 rows (the change of float format that
follows is the identity on the extended reals), and each scale is repeated along 128 columns: [144, 56] broadcast
to [144, 56, 128] and viewed as [144, 7168], so that column `k` of the expanded scales is scale column `k / 128`.
After the region the [4096, 18432] result is viewed as [2, 2048, 18432]. With these the result of the whole program is
the linear map of its three arguments.
-/

set_option maxRecDepth 16384

noncomputable section

namespace Cert.KernelIdeal.Accum

open Cert.KernelIdeal Cert.KernelIdeal.Gen Cert.ScaledLinear
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The activations as the region finds them: the argument with its rows flattened. -/
theorem Xarr_eq (c : Dev nD) :
    Xarr m c = truncf (F := Ideal) .bf16 (shapeCast S4096x7168 (m ((c : Thread nD τ).loc main_arg0)) shapeCasts_S2x2048x7168_S4096x7168) bitsLt_bf16_f32 := by
  show StableHlo.after hostOps0 (fun b => m (c, b)) (Proc.devRef .tc main_v1) = _
  after_results
  rfl

/-- Row `2048 * b + r` of the flattened activations is row `(b, r)` of the argument. -/
theorem Xarr_apply (c : Dev nD) (j : S4096x7168.Idx) (b : Fin 2) (r : Fin 2048) (h : (j 0).val = 2048 * b.val + r.val) :
    (Xarr m c j : EReal) = m ((c : Thread nD τ).loc main_arg0) (ix3 b r (j 1)) := by
  rw [Xarr_eq]
  show shapeCast S4096x7168 (m ((c : Thread nD τ).loc main_arg0)) shapeCasts_S2x2048x7168_S4096x7168 j = _
  exact shapeCast_apply _ shapeCasts_S2x2048x7168_S4096x7168 j (ix3 b r (j 1)) (by
    rewrite [Shape.rowMajor_val_three, Shape.rowMajor_val_two]
    show (b.val * 2048 + r.val) * 7168 + (j 1).val = (j 0).val * 7168 + (j 1).val
    omega)

/-- The expanded scales as the region finds them. -/
theorem Sarr_eq (c : Dev nD) :
    Sarr m c = shapeCast S144x7168 (broadcastInDim S144x56x128 ![0, 1] bcast_S144x56_S144x56x128_0_1 (m ((c : Thread nD τ).loc main_arg2))) shapeCasts_S144x56x128_S144x7168 := by
  show StableHlo.after hostOps0 (fun b => m (c, b)) (Proc.devRef .tc main_v3) = _
  after_results
  rfl

/-- Column `k` of the expanded scales is scale column `k / 128`. -/
theorem Sarr_apply (c : Dev nD) (a : Fin 144) (k : Fin 7168) :
    (Sarr m c (ix2 a k) : EReal) = m ((c : Thread nD τ).loc main_arg2) (ix2 a ⟨k.val / 128, by have := k.isLt; omega⟩) := by
  have hk := k.isLt
  rw [Sarr_eq]
  refine (shapeCast_apply _ shapeCasts_S144x56x128_S144x7168 (ix2 a k)
    (ix3 a ⟨k.val / 128, by omega⟩ ⟨k.val % 128, by omega⟩) (by
      rewrite [Shape.rowMajor_val_three, Shape.rowMajor_val_two]
      show (a.val * 56 + k.val / 128) * 128 + k.val % 128 = a.val * 7168 + k.val
      omega)).trans ?_
  exact broadcastInDim_apply _ bcast_S144x56_S144x56x128_0_1 _ _ (ix2 a ⟨k.val / 128, by omega⟩) (fun d => match d with
    | ⟨0, _⟩ => by show a.val = if (144 : Nat) = 1 then 0 else a.val; rw [if_neg (by decide)]
    | ⟨1, _⟩ => by show k.val / 128 = if (56 : Nat) = 1 then 0 else k.val / 128; rw [if_neg (by decide)])

/-- The program's result: the region's array viewed as [2, 2048, 18432]. -/
theorem tail_eq (c : Dev nD) :
    Pipeline.afterTail₀ cfgs (dats m) 0 (V0 m) [hostOps1] c main_v5
      = shapeCast S2x2048x18432 (result m c) shapeCasts_S4096x18432_S2x2048x18432 := by
  unfold Pipeline.afterTail₀
  show StableHlo.after hostOps1 _ (Proc.devRef .tc main_v5) = _
  after_results
  rw [(Pipeline.withArrays_arr spec0 launch0.win.arr_inj c _ _ 3).trans (final m c)]
  rfl

/-- THE KERNEL PROGRAM'S RESULT is the linear map of its arguments. -/
theorem result_eq (c : Dev nD) :
    Pipeline.afterTail₀ cfgs (dats m) 0 (V0 m) [hostOps1] c main_v5
      = linearOut (m ((c : Thread nD τ).loc main_arg0)) (m ((c : Thread nD τ).loc main_arg1)) (m ((c : Thread nD τ).loc main_arg2)) := by
  rw [tail_eq]
  funext i
  have h0 : (i 0).val < 2 := (i 0).isLt
  have h1 : (i 1).val < 2048 := (i 1).isLt
  have h2 : (i 2).val < 18432 := (i 2).isLt
  refine (shapeCast_apply _ shapeCasts_S4096x18432_S2x2048x18432 i
    (ix2 ⟨2048 * (i 0).val + (i 1).val, by omega⟩ (i 2)) (by
      rewrite [Shape.rowMajor_val_two, Shape.rowMajor_val_three]
      show (2048 * (i 0).val + (i 1).val) * 18432 + (i 2).val = ((i 0).val * 2048 + (i 1).val) * 18432 + (i 2).val
      omega)).trans ?_
  show scaledDot (Xarr m c) (Warr m c) (Sarr m c) _ = _
  rw [show Warr m c = m ((c : Thread nD τ).loc main_arg1) from V_main_arg1 m c]
  exact scaledDot_rows _ _ _ (Xarr m c) (Sarr m c) (fun j b r h => Xarr_apply m c j b r h) (Sarr_apply m c) i _ rfl rfl

end Cert.KernelIdeal.Accum

end
-- ==== Proof.RefSide.lean ====
import proofs.«402235_j25537875542555_3_alg».proof.Proof.Gen.ReferenceIdeal.Read
import proofs.«402235_j25537875542555_3_alg».proof.Proof.Target

/-!
# The reference computes the linear map

The reference views the codes as [144, 128, 56, 128], multiplies by the scales broadcast over the two inner axes of
each block, views the product as [18432, 7168] again and contracts it with the activations. Entry `(o, k)` of the
dequantised weights is therefore `w o k * scale (o / 128) (k / 128)`: the reshape there and back is the identity on
positions, and the two broadcasts pick block row `o / 128` and block column `k / 128`.
-/

noncomputable section

namespace Cert.ReferenceIdeal.Linear

open Cert.ReferenceIdeal Cert.ReferenceIdeal.Gen Cert.ReferenceIdeal.Read Cert.ScaledLinear
open Idealize.ShloMosaic Idealize.ShloMosaic.ValueIdx

/-- The reference's result, index by index, is the linear map of its arguments. -/
theorem ref_eq (x0 : (⟨S2x2048x7168, .f32⟩ : BufTy).Contents (Elt Ideal)) (x1 : (⟨S18432x7168, .f32⟩ : BufTy).Contents (Elt Ideal))
    (x2 : (⟨S144x56, .f32⟩ : BufTy).Contents (Elt Ideal)) :
    val_main_v5 (F := Ideal) x0 x1 x2 = linearOut x0 x1 x2 := by
  funext i
  have h2 : (i 2).val < 18432 := (i 2).isLt
  rw [val_main_v5_apply]
  unfold linearOut
  refine Finset.sum_congr rfl fun k _ => ?_
  have hk := k.isLt
  have e0 : lidx_main_v5 i k = ix3 (i 0) (i 1) k :=
    funext fun a => Fin.ext (by match a with | ⟨0, _⟩ => rfl | ⟨1, _⟩ => rfl | ⟨2, _⟩ => rfl)
  have e1 : idx_main_v0 (idx_main_v4 (ridx_main_v5 i k)) = ix2 (i 2) k :=
    funext fun a => Fin.ext (by
      match a with
      | ⟨0, _⟩ =>
        show ((((((i 2).val * 7168 + k.val) / 917504) * 128 + ((i 2).val * 7168 + k.val) / 7168 % 128) * 56
          + ((i 2).val * 7168 + k.val) / 128 % 56) * 128 + ((i 2).val * 7168 + k.val) % 128) / 7168 = (i 2).val
        omega
      | ⟨1, _⟩ =>
        show ((((((i 2).val * 7168 + k.val) / 917504) * 128 + ((i 2).val * 7168 + k.val) / 7168 % 128) * 56
          + ((i 2).val * 7168 + k.val) / 128 % 56) * 128 + ((i 2).val * 7168 + k.val) % 128) % 7168 = k.val
        omega)
  have e2 : idx_main_v1 (idx_main_v2 (idx_main_v4 (ridx_main_v5 i k)))
      = ix2 ⟨(i 2).val / 128, by omega⟩ ⟨k.val / 128, by omega⟩ :=
    funext fun a => Fin.ext (by
      match a with
      | ⟨0, _⟩ => show ((i 2).val * 7168 + k.val) / 917504 = (i 2).val / 128; omega
      | ⟨1, _⟩ => show ((i 2).val * 7168 + k.val) / 128 % 56 = k.val / 128; omega)
  rw [val_main_v4_apply, val_main_v3_apply, val_main_v0_apply, val_main_v2_apply, val_main_v1_apply, e0, e1, e2]
  rfl

end Cert.ReferenceIdeal.Linear

end
-- ==== Proof.lean ====
/-
  A linear layer with block-scaled weights, computed two ways, is one function on the extended reals.

  Both programs send activations `x` [2, 2048, 7168], weight codes `w` [18432, 7168] and scales `s` [144, 56] (one
  scale per 128 × 128 block of codes) to
      out b t o = ∑ k, x b t k * (w o k * s (o / 128) (k / 128)).
  The reference forms the scaled weights whole and contracts once. The kernel flattens the rows, repeats each scale
  along its 128 columns, and walks a 2 × 18 × 14 grid: at each point it rescales a [1024, 512] tile of codes and adds
  the product with a [2048, 512] tile of activations into a [2048, 1024] output tile, zeroed at the first of the 14
  column runs and written back after the last. The narrower float format used on the way is the identity on the
  extended reals, so the only difference between the two is the grouping of one finite sum: 7168 terms against 14
  runs of 512. Addition on the extended reals is commutative and associative, so no finiteness of the inputs is used.
-/
import proofs.«402235_j25537875542555_3_alg».proof.Defs
import proofs.«402235_j25537875542555_3_alg».proof.Proof.Gen.Kernel
import proofs.«402235_j25537875542555_3_alg».proof.Proof.Gen.Kernel.Frame
import proofs.«402235_j25537875542555_3_alg».proof.Proof.Gen.KernelIdeal
import proofs.«402235_j25537875542555_3_alg».proof.Proof.Gen.KernelIdeal.Frame
import proofs.«402235_j25537875542555_3_alg».proof.Proof.Gen.ReferenceIdeal
import proofs.«402235_j25537875542555_3_alg».proof.Proof.Gen.ReferenceIdeal.Run
import proofs.«402235_j25537875542555_3_alg».proof.Proof.Gen.ReferenceIdeal.Read
import proofs.«402235_j25537875542555_3_alg».proof.Proof.Gen.Pre_finite_inputs
import proofs.«402235_j25537875542555_3_alg».proof.Proof.Host
import proofs.«402235_j25537875542555_3_alg».proof.Proof.RefSide
import Idealize.ShloMosaic.Adequacy
import Idealize.ShloMosaic.Init

noncomputable section

namespace Cert.Proof

open Idealize.ShloMosaic Idealize.ShloMosaic.TcCoe Idealize.SL.Sem Cert.ScaledLinear

/-- The word-level kernel program terminates without a fault and keeps its arguments. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is six host operations in a row: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

section KernelRun

open Cert.KernelIdeal Cert.KernelIdeal.Gen Cert.KernelIdeal.Accum

/-- The kernel program's run, read: its result is the linear map of its arguments, which end unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5)
          = linearOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end KernelRun

/-- No operation of the kernel was rewritten on the way to the extended reals. -/
theorem preserves : Cert.preserves_Kernel_KernelIdeal := trivial

/-- From memories agreeing on the arguments both programs end at the linear map of those arguments. -/
theorem algebraic : Cert.algebraic_KernelIdeal_ReferenceIdeal := by
  intro m ρ m' ρ' _ hagree
  refine ⟨fun c => linearOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Linear.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
